-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S10000x64 : Shape := ⟨2, ![10000, 64]⟩
abbrev S1x64 : Shape := ⟨2, ![1, 64]⟩

abbrev nBuf : Space → Nat
  | .hbm => 68
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1, .i32⟩
  | .hbm, ⟨49, _⟩ => ⟨S_, .i32⟩
  | .hbm, ⟨50, _⟩ => ⟨S1600000x1, .i32⟩
  | .hbm, ⟨51, _⟩ => ⟨S1600000x1, .i1⟩
  | .hbm, ⟨52, _⟩ => ⟨S1x1, .i32⟩
  | .hbm, ⟨53, _⟩ => ⟨S1600000x1, .i32⟩
  | .hbm, ⟨54, _⟩ => ⟨S1600000x1, .i1⟩
  | .hbm, ⟨55, _⟩ => ⟨S1600000x1, .i1⟩
  | .hbm, ⟨56, _⟩ => ⟨S_, .i1⟩
  | .hbm, ⟨57, _⟩ => ⟨S1600000, .i1⟩
  | .hbm, ⟨58, _⟩ => ⟨S1600000x64, .f32⟩
  | .hbm, ⟨59, _⟩ => ⟨S1600000x64, .i1⟩
  | .hbm, ⟨60, _⟩ => ⟨S_, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v9 : Ref sig .tc := ⟨.hbm, 62, rfl⟩
abbrev main_cst_0 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1, .i32⟩
  | .hbm, ⟨59, _⟩ => ⟨S_, .i32⟩
  | .hbm, ⟨60, _⟩ => ⟨S1600000x1, .i32⟩
  | .hbm, ⟨61, _⟩ => ⟨S1600000x1, .i1⟩
  | .hbm, ⟨62, _⟩ => ⟨S1x1, .i32⟩
  | .hbm, ⟨63, _⟩ => ⟨S1600000x1, .i32⟩
  | .hbm, ⟨64, _⟩ => ⟨S1600000x1, .i1⟩
  | .hbm, ⟨65, _⟩ => ⟨S1600000x1, .i1⟩
  | .hbm, ⟨66, _⟩ => ⟨S_, .i1⟩
  | .hbm, ⟨67, _⟩ => ⟨S1600000, .i1⟩
  | .hbm, ⟨68, _⟩ => ⟨S1600000x64, .f32⟩
  | .hbm, ⟨69, _⟩ => ⟨S1600000x64, .i1⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S64x64, .f32⟩
  | .hbm, ⟨83, _⟩ => ⟨S100000x64, .f32⟩
  | .hbm, ⟨84, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call1_cst : Ref sig .tc := ⟨.hbm, 47, rfl⟩
abbrev main_call1_v0 : Ref sig .tc := ⟨.hbm, 48, rfl⟩
abbrev main_v16 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v17 : Ref sig .tc := ⟨.hbm, 72, rfl⟩
abbrev main_cst_0 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«178607_j18545668784680_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.Layer.lean ====
/-
  A graph convolution's dense half over the extended reals, for any extents.

  For every node n the layer takes the aggregated neighbour features A[n, :] and the node's own features X[n, :] and
  returns  (A[n, :] · Wrelᵀ + b) + X[n, :] · Wrootᵀ,  the two weights stored output-major ([N, K]); the hidden layer
  also takes the positive part. Entry (r, c) is
      ((Σₖ A (r, k) · Wrel (c, k)) + b c) + Σₖ X (r, k) · Wroot (c, k),
  so it depends on row r of A and of X only: a block of rows and the whole array are described by one formula.

  Two spellings are that function: a block body's (operands narrowed to sixteen bits, which changes nothing on the
  extended reals; the weights transposed; products accumulated into zeros; the bias a one-row array repeated down the
  rows) and the host's (dot_general against the transposed weights; the bias a vector laid along the columns).
  Both add in the same order, so no law of addition is needed, only the two readings of a matrix product.
-/
import Idealize.ShloMosaic.PureOps.Ideal.Laws
import Idealize.ShloMosaic.Lib.ValueIdx
import Idealize.ShloMosaic.Lib.ValueLayout
import Idealize.ShloMosaic.Lib.Pipeline.Value
import proofs.«178607_j18545668784680_1_alg».proof.Proof.LibDense

noncomputable section

namespace Cert.GraphConv

open Idealize.ShloMosaic Idealize.ShloMosaic.ValueIdx Cert.Lib

variable {M K N : Nat}

/-- (A · Wrelᵀ + b) + X · Wrootᵀ. -/
def conv (A X : FVec Ideal ⟨2, ![M, K]⟩ .f32) (Wrel Wroot : FVec Ideal ⟨2, ![N, K]⟩ .f32)
    (b : FVec Ideal ⟨2, ![1, N]⟩ .f32) : FVec Ideal ⟨2, ![M, N]⟩ .f32 :=
  fun i => affine A Wrel b i + mulT X Wroot i

/-- The positive part of it, the zero kept as the word it is printed with. -/
def convRelu (A X : FVec Ideal ⟨2, ![M, K]⟩ .f32) (Wrel Wroot : FVec Ideal ⟨2, ![N, K]⟩ .f32)
    (b : FVec Ideal ⟨2, ![1, N]⟩ .f32) : FVec Ideal ⟨2, ![M, N]⟩ .f32 :=
  fun i => max (conv A X Wrel Wroot b i) (Ideal.ofBits .f32 0x00000000#32)

/-- Row r of the layer's output depends on row r of the two inputs only. -/
theorem conv_row_congr {M' : Nat} (A X : FVec Ideal ⟨2, ![M, K]⟩ .f32) (A' X' : FVec Ideal ⟨2, ![M', K]⟩ .f32)
    (Wrel Wroot : FVec Ideal ⟨2, ![N, K]⟩ .f32) (b : FVec Ideal ⟨2, ![1, N]⟩ .f32) (r : Fin M) (r' : Fin M')
    (hA : ∀ k : Fin K, A (ix2 r k) = A' (ix2 r' k)) (hX : ∀ k : Fin K, X (ix2 r k) = X' (ix2 r' k)) (c : Fin N) :
    conv A X Wrel Wroot b (ix2 r c) = conv A' X' Wrel Wroot b (ix2 r' c) := by
  show affine A Wrel b (ix2 r c) + mulT X Wroot (ix2 r c) = affine A' Wrel b (ix2 r' c) + mulT X' Wroot (ix2 r' c)
  rw [affine_row_congr A A' Wrel b r r' hA c, mulT_row_congr X X' Wroot r r' hX c]

theorem convRelu_row_congr {M' : Nat} (A X : FVec Ideal ⟨2, ![M, K]⟩ .f32) (A' X' : FVec Ideal ⟨2, ![M', K]⟩ .f32)
    (Wrel Wroot : FVec Ideal ⟨2, ![N, K]⟩ .f32) (b : FVec Ideal ⟨2, ![1, N]⟩ .f32) (r : Fin M) (r' : Fin M')
    (hA : ∀ k : Fin K, A (ix2 r k) = A' (ix2 r' k)) (hX : ∀ k : Fin K, X (ix2 r k) = X' (ix2 r' k)) (c : Fin N) :
    convRelu A X Wrel Wroot b (ix2 r c) = convRelu A' X' Wrel Wroot b (ix2 r' c) := by
  show max (conv A X Wrel Wroot b (ix2 r c)) _ = max (conv A' X' Wrel Wroot b (ix2 r' c)) _
  rw [conv_row_congr A X A' X' Wrel Wroot b r r' hA hX c]

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : FTy.bf16.bits < FTy.f32.bits)
  (ht : (⟨2, ![N, K]⟩ : Shape).Transposes [1, 0] ⟨2, ![K, N]⟩)
  (hbc : (⟨2, ![1, N]⟩ : Shape).Broadcasts ⟨2, ![M, N]⟩)

include hlc hrc hln hrn hlb hrb in
/-- A block body's spelling of the layer. -/
theorem block_conv (A X : FVec Ideal ⟨2, ![M, K]⟩ .f32) (Wrel Wroot : FVec Ideal ⟨2, ![N, K]⟩ .f32)
    (b : FVec Ideal ⟨2, ![1, N]⟩ .f32) :
    addf (addf (matmul d none (truncf .bf16 A hb) (transpose ⟨2, ![K, N]⟩ [1, 0] (truncf .bf16 Wrel hb) ht)
          (constant ⟨2, ![M, N]⟩ .f32 0x00000000#32)) (broadcastTo ⟨2, ![M, N]⟩ b hbc))
      (matmul d none (truncf .bf16 X hb) (transpose ⟨2, ![K, N]⟩ [1, 0] (truncf .bf16 Wroot hb) ht)
          (constant ⟨2, ![M, N]⟩ .f32 0x00000000#32))
      = conv A X Wrel Wroot b := by
  rw [addf_matmul_bias d hlc hrc hln hrn hlb hrb, matmul_trunc_transpose d hlc hrc hln hrn hlb hrb]
  rfl

include hlc hrc hln hrn hlb hrb in
/-- The same with the positive part taken against a splat of the zero word. -/
theorem block_convRelu (A X : FVec Ideal ⟨2, ![M, K]⟩ .f32) (Wrel Wroot : FVec Ideal ⟨2, ![N, K]⟩ .f32)
    (b : FVec Ideal ⟨2, ![1, N]⟩ .f32) :
    maximumf (addf (addf (matmul d none (truncf .bf16 A hb) (transpose ⟨2, ![K, N]⟩ [1, 0] (truncf .bf16 Wrel hb) ht)
          (constant ⟨2, ![M, N]⟩ .f32 0x00000000#32)) (broadcastTo ⟨2, ![M, N]⟩ b hbc))
      (matmul d none (truncf .bf16 X hb) (transpose ⟨2, ![K, N]⟩ [1, 0] (truncf .bf16 Wroot hb) ht)
          (constant ⟨2, ![M, N]⟩ .f32 0x00000000#32)))
      (broadcast ⟨2, ![M, N]⟩ (Scalar.ofBits (F := Ideal) .f32 0x00000000#32))
      = convRelu A X Wrel Wroot b := by
  rw [block_conv d hlc hrc hln hrn hlb hrb hb ht hbc]
  rfl

end Block

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (ht : (⟨2, ![N, K]⟩ : Shape).Transposes [1, 0] ⟨2, ![K, N]⟩)
  (h₁ : (⟨1, ![N]⟩ : Shape).BroadcastsInDim ⟨2, ![1, N]⟩ ![1])
  (h₂ : (⟨2, ![1, N]⟩ : Shape).BroadcastsInDim ⟨2, ![M, N]⟩ ![0, 1])
  (hc : (⟨1, ![N]⟩ : Shape).ShapeCasts ⟨2, ![1, N]⟩)
  (h0 : (⟨0, ![]⟩ : Shape).BroadcastsInDim ⟨2, ![M, N]⟩ ![])

include hlc hrc hln hrn hlb hrb in
/-- The host's spelling of the layer; the bias row is the bias vector cast to [1, N]. -/
theorem host_conv (A X : FVec Ideal ⟨2, ![M, K]⟩ .f32) (Wrel Wroot : FVec Ideal ⟨2, ![N, K]⟩ .f32)
    (bv : FVec Ideal ⟨1, ![N]⟩ .f32) :
    addf (addf (Host.dotGeneral d none A (transpose ⟨2, ![K, N]⟩ [1, 0] Wrel ht))
          (broadcastInDim ⟨2, ![M, N]⟩ ![0, 1] h₂ (broadcastInDim ⟨2, ![1, N]⟩ ![1] h₁ bv)))
      (Host.dotGeneral d none X (transpose ⟨2, ![K, N]⟩ [1, 0] Wroot ht))
      = conv A X Wrel Wroot (shapeCast ⟨2, ![1, N]⟩ bv hc) := by
  rw [addf_dotGeneral_bias d hlc hrc hln hrn hlb hrb none A Wrel bv ht h₁ h₂ hc,
    dotGeneral_transpose d hlc hrc hln hrn hlb hrb]
  rfl

include hlc hrc hln hrn hlb hrb in
/-- The same with the positive part taken against the zero word broadcast from a scalar array. -/
theorem host_convRelu (A X : FVec Ideal ⟨2, ![M, K]⟩ .f32) (Wrel Wroot : FVec Ideal ⟨2, ![N, K]⟩ .f32)
    (bv : FVec Ideal ⟨1, ![N]⟩ .f32) :
    maximumf (addf (addf (Host.dotGeneral d none A (transpose ⟨2, ![K, N]⟩ [1, 0] Wrel ht))
          (broadcastInDim ⟨2, ![M, N]⟩ ![0, 1] h₂ (broadcastInDim ⟨2, ![1, N]⟩ ![1] h₁ bv)))
      (Host.dotGeneral d none X (transpose ⟨2, ![K, N]⟩ [1, 0] Wroot ht)))
      (broadcastInDim ⟨2, ![M, N]⟩ ![] h0 (constant ⟨0, ![]⟩ .f32 0x00000000#32))
      = convRelu A X Wrel Wroot (shapeCast ⟨2, ![1, N]⟩ bv hc) := by
  rw [host_conv d hlc hrc hln hrn hlb hrb ht h₁ h₂ hc]
  rfl

end Host

end Cert.GraphConv

end
-- ==== Proof.KernelBlocks.lean ====
/-
  What each of the two kernel regions leaves in its output array, as one function of the arrays the region finds.

  A region runs its body at ten grid points; point t reads rows 10000·t … 10000·t + 9999 of the aggregated features
  and of the node features, the two weight matrices and the bias whole, and writes rows 10000·t … 10000·t + 9999 of
  the output. The body's arithmetic is the layer's (the hidden layer with its positive part in the first region, the
  output layer without it in the second), and an entry of the layer depends on one row of its two inputs only, so the
  block point t writes back is block t of the layer applied to the WHOLE arrays. The ten blocks tile the 100000 rows,
  so after the last write-back the output array is that whole-array function.
-/
import proofs.«178607_j18545668784680_1_alg».proof.Proof.Gen.KernelIdeal.Frame
import proofs.«178607_j18545668784680_1_alg».proof.Proof.Layer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.GraphConv

/-- The bias vector as the one-row array the body repeats down its rows. -/
abbrev biasRow (b : S64.Idx → Elt Ideal .f32) : S1x64.Idx → Elt Ideal .f32 := shapeCast S1x64 b shapeCasts_S64_S1x64

/-- The hidden layer over whole arrays: max ((A · Wrelᵀ + b) + X · Wrootᵀ, 0). -/
abbrev hiddenFn (a x : S100000x64.Idx → Elt Ideal .f32) (wrel wroot : S64x64.Idx → Elt Ideal .f32)
    (b : S64.Idx → Elt Ideal .f32) : S100000x64.Idx → Elt Ideal .f32 :=
  convRelu (M := 100000) (K := 64) (N := 64) a x wrel wroot (biasRow b)

/-- The output layer over whole arrays: (A · Wrelᵀ + b) + X · Wrootᵀ. -/
abbrev outFn (a x : S100000x64.Idx → Elt Ideal .f32) (wrel wroot : S64x64.Idx → Elt Ideal .f32)
    (b : S64.Idx → Elt Ideal .f32) : S100000x64.Idx → Elt Ideal .f32 :=
  conv (M := 100000) (K := 64) (N := 64) a x wrel wroot (biasRow b)

theorem hz2 : (![0, 0] : Fin 2 → Nat) = fun _ => 0 := funext fun a => by fin_cases a <;> rfl
theorem hz1 : (![0] : Fin 1 → Nat) = fun _ => 0 := funext fun a => by fin_cases a; rfl

/-! ## The two bodies' arithmetic is the layer's, on a block -/

/-- The first body's stored value: the hidden layer of its loaded blocks. -/
theorem pay0_eq (ab xb : Vec Ideal S10000x64 .f32) (w2 w4 : Vec Ideal S64x64 .f32) (b : Vec Ideal S64 .f32) :
    k0_pay1 (F := Ideal) ab xb w2 w4 b = convRelu (M := 10000) (K := 64) (N := 64) ab xb w2 w4 (biasRow b) := by
  unfold k0_pay1
  rw [shapeCast_self]
  exact block_convRelu dot_S10000x64_S64x64_S10000x64_1_0_0_1_n_n rfl rfl rfl rfl rfl rfl _ _ _ ab xb w2 w4 _

/-- The second body's stored value: the output layer of its loaded blocks. -/
theorem pay1_eq (ab xb : Vec Ideal S10000x64 .f32) (w5 w7 : Vec Ideal S64x64 .f32) (b : Vec Ideal S64 .f32) :
    k1_pay1 (F := Ideal) ab xb w5 w7 b = conv (M := 10000) (K := 64) (N := 64) ab xb w5 w7 (biasRow b) := by
  unfold k1_pay1
  rw [shapeCast_self, shapeCast_self]
  exact block_conv dot_S10000x64_S64x64_S10000x64_1_0_0_1_n_n rfl rfl rfl rfl rfl rfl _ _ _ ab xb w5 w7 _

/-- Row p of a block holding rows of the arrays, read against row n of the arrays: the hidden layer's entry. -/
theorem pay0_at (ab xb : Vec Ideal S10000x64 .f32) (w2 w4 : Vec Ideal S64x64 .f32) (b : Vec Ideal S64 .f32)
    (a x : S100000x64.Idx → Elt Ideal .f32) (p : Fin 10000) (q : Fin 64) (n : Fin 100000)
    (ha : ∀ k : Fin 64, ab (ix2 p k) = a (ix2 n k)) (hx : ∀ k : Fin 64, xb (ix2 p k) = x (ix2 n k)) :
    k0_pay1 (F := Ideal) ab xb w2 w4 b (ix2 p q) = hiddenFn a x w2 w4 b (ix2 n q) := by
  rw [pay0_eq]
  exact convRelu_row_congr ab xb a x w2 w4 (biasRow b) p n ha hx q

theorem pay1_at (ab xb : Vec Ideal S10000x64 .f32) (w5 w7 : Vec Ideal S64x64 .f32) (b : Vec Ideal S64 .f32)
    (a x : S100000x64.Idx → Elt Ideal .f32) (p : Fin 10000) (q : Fin 64) (n : Fin 100000)
    (ha : ∀ k : Fin 64, ab (ix2 p k) = a (ix2 n k)) (hx : ∀ k : Fin 64, xb (ix2 p k) = x (ix2 n k)) :
    k1_pay1 (F := Ideal) ab xb w5 w7 b (ix2 p q) = outFn a x w5 w7 b (ix2 n q) := by
  rw [pay1_eq]
  exact conv_row_congr ab xb a x w5 w7 (biasRow b) p n ha hx q

/-! ## The first region -/

section Region0

variable (V : (c : Dev nD) → (b : Ref sig .tc) → Buf (Elt Ideal) ((c : Thread nD τ).loc b))

/-- The block indices of the first region's windows at grid point t: the row windows sit at block row t, the weights
    and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_3.index t (0 : Fin 1) = 0 :=
  (by decide +kernel : ∀ t : Fin grid0.N, _)

theorem lt_ten0 (t : Fin cfg0.N) : t.val < 10 := lt_of_lt_of_eq t.isLt N_0

/-- Row p of block t is row 10000·t + p of the array. -/
def row0 (t : Fin cfg0.N) (p : Fin 10000) : Fin 100000 :=
  ⟨t.val * 10000 + p.val, by have := lt_ten0 t; have := p.isLt; omega⟩

/-- The weight and bias windows hold the whole arrays at every point. -/
theorem iblk0_2 (c : Dev nD) (t : Fin cfg0.N) : iblk0 V c 2 t = V c main_arg2 := by
  obtain ⟨-, -, -, -, -, -, e20, e21, -, -, -⟩ := idx0 t
  funext y
  unfold iblk0
  rw [View.read_apply]
  show V c main_arg2 _ = V c main_arg2 y
  congr 1
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem iblk0_4 (c : Dev nD) (t : Fin cfg0.N) : iblk0 V c 4 t = V c main_arg4 := by
  obtain ⟨-, -, -, -, -, -, -, -, e40, e41, -⟩ := idx0 t
  funext y
  unfold iblk0
  rw [View.read_apply]
  show V c main_arg4 _ = V c main_arg4 y
  congr 1
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem iblk0_3 (c : Dev nD) (t : Fin cfg0.N) : iblk0 V c 3 t = V c main_arg3 := by
  obtain ⟨-, -, -, -, -, -, -, -, -, -, e30⟩ := idx0 t
  funext y
  unfold iblk0
  rw [View.read_apply]
  show V c main_arg3 _ = V c main_arg3 y
  congr 1
  funext a; apply Fin.ext
  match a with
  | ⟨0, _⟩ => show win0_3.index t (0 : Fin 1) * 64 + 1 * (y 0).val = (y 0).val; omega

/-- The row windows hold rows 10000·t … of their arrays. -/
theorem iblk0_0_row (c : Dev nD) (t : Fin cfg0.N) (p : Fin 10000) (k : Fin 64) :
    (iblk0 V c 0 t : Vec Ideal S10000x64 .f32) (ix2 p k) = (V c main_v7 : S100000x64.Idx → Elt Ideal .f32) (ix2 (row0 t p) k) := by
  obtain ⟨e00, e01, -, -, -, -, -, -, -, -, -⟩ := idx0 t
  unfold iblk0
  rw [View.read_apply]
  show V c main_v7 _ = V c main_v7 _
  congr 1
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem iblk0_1_row (c : Dev nD) (t : Fin cfg0.N) (p : Fin 10000) (k : Fin 64) :
    (iblk0 V c 1 t : Vec Ideal S10000x64 .f32) (ix2 p k) = (V c main_arg0 : S100000x64.Idx → Elt Ideal .f32) (ix2 (row0 t p) k) := by
  obtain ⟨-, -, e10, e11, -, -, -, -, -, -, -⟩ := idx0 t
  unfold iblk0
  rw [View.read_apply]
  show V c main_arg0 _ = V c main_arg0 _
  congr 1
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

/-- WHAT POINT t WRITES BACK is block t of the layer of the whole arrays. -/
theorem flushed0_eq (c : Dev nD) (t : Fin cfg0.N) :
    (dat0 V c).flushed 5 t = ((cfg0.win 5).blk t).view.read (Elt Ideal)
      (hiddenFn (V c main_v7) (V c main_arg0) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x64) hz2, View.ld_unit_zero (S := S64) hz1]
  rw [iblk0_2 V c t, iblk0_4 V c t, iblk0_3 V c t]
  obtain ⟨-, -, -, -, e50, e51, -, -, -, -, -⟩ := idx0 t
  funext j
  obtain ⟨p, q, rfl⟩ : ∃ (p : Fin 10000) (q : Fin 64), j = ix2 p q := ⟨j 0, j 1, eq_ix2 j⟩
  have hemb : ((cfg0.win 5).blk t).view.emb (ix2 p q) = (ix2 (row0 t p) q : S100000x64.Idx) := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  rw [View.read_apply, hemb]
  exact pay0_at (iblk0 V c 0 t) (iblk0 V c 1 t) (V c main_arg2) (V c main_arg4) (V c main_arg3) (V c main_v7) (V c main_arg0) p q (row0 t p)
    (fun k => iblk0_0_row V c t p k) (fun k => iblk0_1_row V c t p k)

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v8).slice (win0_5.rect t)).set ↔ _
  rw [View.set_slice_whole, Rect.mem_set_unit]
  exact Iff.rfl

/-- Every row of the output lies in the block of the point its row index divided by 10000 names. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e50, e51, -, -, -, -, -⟩ := idx0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: the layer of the arrays the region found. -/
theorem final0 (c : Dev nD) :
    (dat0 V c).arrAt 5 cfg0.N = hiddenFn (V c main_v7) (V c main_arg0) (V c main_arg2) (V c main_arg4) (V c main_arg3) :=
  (dat0 V c).arrAt_eq_of_cover 5 _ (fun t _ => flushed0_eq V c t) (cover0)

end Region0

end Cert.KernelIdeal.Blocks

end
-- ==== Proof.KernelBlocks1.lean ====
import proofs.«178607_j18545668784680_1_alg».proof.Proof.KernelBlocks

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.GraphConv

/-! ## The second region -/

section Region1

variable (V : (c : Dev nD) → (b : Ref sig .tc) → Buf (Elt Ideal) ((c : Thread nD τ).loc b))

/-- The block indices of the second region's windows at grid point t: the row windows sit at block row t, the weights
    and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_3.index t (0 : Fin 1) = 0 :=
  (by decide +kernel : ∀ t : Fin grid1.N, _)

theorem lt_ten1 (t : Fin cfg1.N) : t.val < 10 := lt_of_lt_of_eq t.isLt N_1

/-- Row p of block t is row 10000·t + p of the array. -/
def row1 (t : Fin cfg1.N) (p : Fin 10000) : Fin 100000 :=
  ⟨t.val * 10000 + p.val, by have := lt_ten1 t; have := p.isLt; omega⟩

/-- The weight and bias windows hold the whole arrays at every point. -/
theorem iblk1_2 (c : Dev nD) (t : Fin cfg1.N) : iblk1 V c 2 t = V c main_arg5 := by
  obtain ⟨-, -, -, -, -, -, e20, e21, -, -, -⟩ := idx1 t
  funext y
  unfold iblk1
  rw [View.read_apply]
  show V c main_arg5 _ = V c main_arg5 y
  congr 1
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem iblk1_4 (c : Dev nD) (t : Fin cfg1.N) : iblk1 V c 4 t = V c main_arg7 := by
  obtain ⟨-, -, -, -, -, -, -, -, e40, e41, -⟩ := idx1 t
  funext y
  unfold iblk1
  rw [View.read_apply]
  show V c main_arg7 _ = V c main_arg7 y
  congr 1
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem iblk1_3 (c : Dev nD) (t : Fin cfg1.N) : iblk1 V c 3 t = V c main_arg6 := by
  obtain ⟨-, -, -, -, -, -, -, -, -, -, e30⟩ := idx1 t
  funext y
  unfold iblk1
  rw [View.read_apply]
  show V c main_arg6 _ = V c main_arg6 y
  congr 1
  funext a; apply Fin.ext
  match a with
  | ⟨0, _⟩ => show win1_3.index t (0 : Fin 1) * 64 + 1 * (y 0).val = (y 0).val; omega

/-- The row windows hold rows 10000·t … of their arrays. -/
theorem iblk1_0_row (c : Dev nD) (t : Fin cfg1.N) (p : Fin 10000) (k : Fin 64) :
    (iblk1 V c 0 t : Vec Ideal S10000x64 .f32) (ix2 p k) = (V c main_v12 : S100000x64.Idx → Elt Ideal .f32) (ix2 (row1 t p) k) := by
  obtain ⟨e00, e01, -, -, -, -, -, -, -, -, -⟩ := idx1 t
  unfold iblk1
  rw [View.read_apply]
  show V c main_v12 _ = V c main_v12 _
  congr 1
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

theorem iblk1_1_row (c : Dev nD) (t : Fin cfg1.N) (p : Fin 10000) (k : Fin 64) :
    (iblk1 V c 1 t : Vec Ideal S10000x64 .f32) (ix2 p k) = (V c main_v8 : S100000x64.Idx → Elt Ideal .f32) (ix2 (row1 t p) k) := by
  obtain ⟨-, -, e10, e11, -, -, -, -, -, -, -⟩ := idx1 t
  unfold iblk1
  rw [View.read_apply]
  show V c main_v8 _ = V c main_v8 _
  congr 1
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

/-- WHAT POINT t WRITES BACK is block t of the layer of the whole arrays. -/
theorem flushed1_eq (c : Dev nD) (t : Fin cfg1.N) :
    (dat1 V c).flushed 5 t = ((cfg1.win 5).blk t).view.read (Elt Ideal)
      (outFn (V c main_v12) (V c main_v8) (V c main_arg5) (V c main_arg7) (V c main_arg6)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  rw [iblk1_2 V c t, iblk1_4 V c t, iblk1_3 V c t]
  obtain ⟨-, -, -, -, e50, e51, -, -, -, -, -⟩ := idx1 t
  funext j
  obtain ⟨p, q, rfl⟩ : ∃ (p : Fin 10000) (q : Fin 64), j = ix2 p q := ⟨j 0, j 1, eq_ix2 j⟩
  have hemb : ((cfg1.win 5).blk t).view.emb (ix2 p q) = (ix2 (row1 t p) q : S100000x64.Idx) := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  rw [View.read_apply, hemb]
  exact pay1_at (iblk1 V c 0 t) (iblk1 V c 1 t) (V c main_arg5) (V c main_arg7) (V c main_arg6) (V c main_v12) (V c main_v8) p q (row1 t p)
    (fun k => iblk1_0_row V c t p k) (fun k => iblk1_1_row V c t p k)

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v13).slice (win1_5.rect t)).set ↔ _
  rw [View.set_slice_whole, Rect.mem_set_unit]
  exact Iff.rfl

/-- Every row of the output lies in the block of the point its row index divided by 10000 names. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e50, e51, -, -, -, -, -⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: the layer of the arrays the region found. -/
theorem final1 (c : Dev nD) :
    (dat1 V c).arrAt 5 cfg1.N = outFn (V c main_v12) (V c main_v8) (V c main_arg5) (V c main_arg7) (V c main_arg6) :=
  (dat1 V c).arrAt_eq_of_cover 5 _ (fun t _ => flushed1_eq V c t) (cover1)

end Region1

end Cert.KernelIdeal.Blocks

end
-- ==== Proof.KernelHost.lean ====
/-
  What the host operations around the two kernel regions compute, and the contents each region is entered with.

  Both layers aggregate the same way: the first row of the edge list names a source node per edge and the second a
  destination node; the rows of a feature array are taken at the sources (a negative index is wrapped once by adding
  the number of nodes, an index still out of range reads the fill word instead of a row) and added into a zero array
  at the destinations. That is one function of a feature array and the edge list (`aggK`), used twice: on the node
  features before the first region and on the first region's output before the second.

  The program's buffers at each boundary are a fold of the operations over the launch memory. Each stretch of
  operations is read on its own, at any contents: what it leaves in the one buffer a later reader wants, and that it
  leaves the other buffers it does not write as they were. Chaining these gives the arrays each region is entered with
  as functions of the arguments.
-/
import proofs.«178607_j18545668784680_1_alg».proof.Proof.Gen.KernelIdeal.Frame
import proofs.«178607_j18545668784680_1_alg».proof.Proof.KernelBlocks
import proofs.«178607_j18545668784680_1_alg».proof.Proof.KernelBlocks1
import Idealize.ShloMosaic.Lib.StableHlo.Run

set_option maxRecDepth 16384

noncomputable section

set_option Elab.async false

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-! ## The aggregation as one function -/

/-- The source node of every edge: the first row of the edge list. -/
def srcRow (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The destination node of every edge: the second row. -/
def dstRow (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The index column the rows are taken at: an index below zero has the number of nodes added once. -/
def wrapCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One row of x per edge, taken at the edge's source; where the wrapped index is outside 0 … 99999 the fill word. -/
def takeRows (x : (⟨S100000x64, .f32⟩ : BufTy).Contents (Elt F)) (src : (⟨S1600000, .i32⟩ : BufTy).Contents (Elt F)) :
    (⟨S1600000x64, .f32⟩ : BufTy).Contents (Elt F) :=
  select
    (broadcastInDim S1600000x64 ![0] bcast_S1600000_S1600000x64_0
      (Host.reduce IntOp.andi
        (andi (cmpi .sge (wrapCol src) (broadcastInDim S1600000x1 ![] bcast_S_S1600000x1 (constantI S_ 32 0#32)))
          (cmpi .sle (wrapCol src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x (wrapCol src))
    (broadcastInDim S1600000x64 ![] bcast_S_S1600000x64 (constant S_ .f32 0x7FC00000#32))

/-- The per-edge rows added into a zero array at the edges' destinations. -/
def scatterRows (dst : (⟨S1600000, .i32⟩ : BufTy).Contents (Elt F)) (msgs : (⟨S1600000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) msgs

/-- The aggregation: rows taken at the sources, added at the destinations. -/
def aggK (x : (⟨S100000x64, .f32⟩ : BufTy).Contents (Elt F)) (ei : (⟨S2x1600000, .i32⟩ : BufTy).Contents (Elt F)) :
    (⟨S100000x64, .f32⟩ : BufTy).Contents (Elt F) :=
  scatterRows (dstRow ei) (takeRows x (srcRow ei))

/-! ## The two row-taking stretches, their operations written at the buffers themselves

The program lists the operations of a called function through typed references, each contents passed through a
transport along an equation of buffer types that holds by computation. Written at the buffers themselves the same
operations carry no transport; the two lists are equal by unfolding, one operation at a time, and the second is read. -/

/-- The 23 operations that take rows of the node features at the edges' sources. -/
abbrev takeOps0 : List (HloOp τ sig (Elt F)) :=
  [ StableHlo.nullary main_call0_c (constantI S_ 32 0#32 : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_v1 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 (constantI S_ 32 100000#32 : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg0 main_call0_v5 main_call0_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call0_v12 main_call0_v14 ((broadcastInDim S1600000x64 ![0] bcast_S1600000_S1600000x64_0) : (⟨S1600000, .i1⟩ : BufTy).Contents (Elt F) → (⟨S1600000x64, .i1⟩ : BufTy).Contents (Elt F)),
    StableHlo.nullary main_call0_cst (constant S_ .f32 0x7FC00000#32 : (⟨S_, .f32⟩ : BufTy).Contents (Elt F)),
    StableHlo.unary main_call0_cst main_call0_v15 ((broadcastInDim S1600000x64 ![] bcast_S_S1600000x64) : (⟨S_, .f32⟩ : BufTy).Contents (Elt F) → (⟨S1600000x64, .f32⟩ : BufTy).Contents (Elt F)),
    StableHlo.ternary main_call0_v14 main_call0_v13 main_call0_v15 main_v4 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)) ]

/-- The same 23 operations on the hidden layer, over the second call's buffers. -/
abbrev takeOps1 : List (HloOp τ sig (Elt F)) :=
  [ StableHlo.nullary main_call1_c (constantI S_ 32 0#32 : (⟨S_, .i32⟩ : BufTy).Contents (Elt F)),
    StableHlo.unary main_call1_c main_call1_v0 ((broadcastInDim S1600000 ![] bcast_S_S1600000) : (⟨S_, .i32⟩ : BufTy).Contents (Elt F) → (⟨S1600000, .i32⟩ : BufTy).Contents (Elt F)),
    StableHlo.binary main_v1 main_call1_v0 main_call1_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call1_c_0 (constantI S_ 32 100000#32 : (⟨S_, .i32⟩ : BufTy).Contents (Elt F)),
    StableHlo.unary main_call1_c_0 main_call1_v2 ((broadcastInDim S1600000 ![] bcast_S_S1600000) : (⟨S_, .i32⟩ : BufTy).Contents (Elt F) → (⟨S1600000, .i32⟩ : BufTy).Contents (Elt F)),
    StableHlo.binary main_v1 main_call1_v2 main_call1_v3 (addi : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_v1 main_call1_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 ((broadcastInDim S1600000x1 ![0] bcast_S1600000_S1600000x1_0) : (⟨S1600000, .i32⟩ : BufTy).Contents (Elt F) → (⟨S1600000x1, .i32⟩ : BufTy).Contents (Elt F)),
    StableHlo.nullary main_call1_c_1 (constantI S1 32 99999#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 ((broadcastInDim S1600000x1 ![] bcast_S_S1600000x1) : (⟨S_, .i32⟩ : BufTy).Contents (Elt F) → (⟨S1600000x1, .i32⟩ : BufTy).Contents (Elt F)),
    StableHlo.binary main_call1_v5 main_call1_v6 main_call1_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call1_v5 main_call1_v9 main_call1_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 (andi : (⟨S1600000x1, .i1⟩ : BufTy).Contents (Elt F) → (⟨S1600000x1, .i1⟩ : BufTy).Contents (Elt F) → (⟨S1600000x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_v8 main_call1_v5 main_call1_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call1_v12 main_call1_v14 ((broadcastInDim S1600000x64 ![0] bcast_S1600000_S1600000x64_0) : (⟨S1600000, .i1⟩ : BufTy).Contents (Elt F) → (⟨S1600000x64, .i1⟩ : BufTy).Contents (Elt F)),
    StableHlo.nullary main_call1_cst (constant S_ .f32 0x7FC00000#32 : (⟨S_, .f32⟩ : BufTy).Contents (Elt F)),
    StableHlo.unary main_call1_cst main_call1_v15 ((broadcastInDim S1600000x64 ![] bcast_S_S1600000x64) : (⟨S_, .f32⟩ : BufTy).Contents (Elt F) → (⟨S1600000x64, .f32⟩ : BufTy).Contents (Elt F)),
    StableHlo.ternary main_call1_v14 main_call1_v13 main_call1_v15 main_v9 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)) ]

attribute [local irreducible] Host.gather Host.scatterAdd Host.reduce in
set_option maxRecDepth 8192 in
set_option maxHeartbeats 2000000 in
theorem hostOps0_1_eq : (hostOps0_1 : List (HloOp τ sig (Elt F))) = takeOps0 := rfl
attribute [local irreducible] Host.gather Host.scatterAdd Host.reduce in
set_option maxRecDepth 8192 in
set_option maxHeartbeats 2000000 in
theorem hostOps1_eq : (hostOps1 : List (HloOp τ sig (Elt F))) = takeOps1 := rfl

/-! ## Each stretch of host operations, read at any contents -/

section Stretches

variable (Vl : Valuation τ sig (Elt F))

attribute [local irreducible] Host.reduce Host.gather Host.scatterAdd

theorem slices_v1 : after (hostOps0 (F := F)) Vl (Proc.devRef .tc main_v1) = srcRow (Vl (Proc.devRef .tc main_arg1)) := by
  unfold hostOps0
  after_results
  rfl

theorem slices_v3 : after (hostOps0 (F := F)) Vl (Proc.devRef .tc main_v3) = dstRow (Vl (Proc.devRef .tc main_arg1)) := by
  unfold hostOps0
  after_results
  rfl

set_option maxHeartbeats 2000000 in
theorem take0_v4 : after (hostOps0_1 (F := F)) Vl (Proc.devRef .tc main_v4)
    = takeRows (Vl (Proc.devRef .tc main_arg0)) (Vl (Proc.devRef .tc main_v1)) := by
  rw [hostOps0_1_eq]
  unfold takeOps0
  after_results_simp
  rfl

theorem scatter0_v7 : after (hostOps0_2 (F := F)) Vl (Proc.devRef .tc main_v7)
    = scatterRows (Vl (Proc.devRef .tc main_v3)) (Vl (Proc.devRef .tc main_v4)) := by
  unfold hostOps0_2
  after_results
  rfl

set_option maxHeartbeats 2000000 in
theorem take1_v9 : after (hostOps1 (F := F)) Vl (Proc.devRef .tc main_v9)
    = takeRows (Vl (Proc.devRef .tc main_v8)) (Vl (Proc.devRef .tc main_v1)) := by
  rw [hostOps1_eq]
  unfold takeOps1
  after_results_simp
  rfl

theorem scatter1_v12 : after (hostOps1_1 (F := F)) Vl (Proc.devRef .tc main_v12)
    = scatterRows (Vl (Proc.devRef .tc main_v3)) (Vl (Proc.devRef .tc main_v9)) := by
  unfold hostOps1_1
  after_results
  rfl

/-- The two slices and reshapes write none of the arguments. -/
theorem slices_keep : ∀ b ∈ ([main_arg0, main_arg2, main_arg3, main_arg4] : List (Ref sig .tc)),
    after (hostOps0 (F := F)) Vl (Proc.devRef .tc b) = Vl (Proc.devRef .tc b) := by
  intro b hb
  simp only [List.mem_cons, List.not_mem_nil, or_false] at hb
  rcases hb with rfl | rfl | rfl | rfl <;> (unfold hostOps0; after_results)

set_option maxHeartbeats 4000000 in
/-- Taking rows of the node features writes neither index row nor an argument. -/
theorem take0_keep : ∀ b ∈ ([main_v1, main_v3, main_arg0, main_arg2, main_arg3, main_arg4] : List (Ref sig .tc)),
    after (hostOps0_1 (F := F)) Vl (Proc.devRef .tc b) = Vl (Proc.devRef .tc b) := by
  intro b hb
  simp only [List.mem_cons, List.not_mem_nil, or_false] at hb
  rcases hb with rfl | rfl | rfl | rfl | rfl | rfl <;> (rw [hostOps0_1_eq]; unfold takeOps0; after_results_simp)

theorem scatter0_keep : ∀ b ∈ ([main_v1, main_v3, main_arg0, main_arg2, main_arg3, main_arg4] : List (Ref sig .tc)),
    after (hostOps0_2 (F := F)) Vl (Proc.devRef .tc b) = Vl (Proc.devRef .tc b) := by
  intro b hb
  simp only [List.mem_cons, List.not_mem_nil, or_false] at hb
  rcases hb with rfl | rfl | rfl | rfl | rfl | rfl <;> (unfold hostOps0_2; after_results)

set_option maxHeartbeats 4000000 in
/-- Taking rows of the hidden layer writes neither the destination row nor the hidden layer. -/
theorem take1_keep : ∀ b ∈ ([main_v3, main_v8] : List (Ref sig .tc)),
    after (hostOps1 (F := F)) Vl (Proc.devRef .tc b) = Vl (Proc.devRef .tc b) := by
  intro b hb
  simp only [List.mem_cons, List.not_mem_nil, or_false] at hb
  rcases hb with rfl | rfl <;> (rw [hostOps1_eq]; unfold takeOps1; after_results_simp)

theorem scatter1_keep : after (hostOps1_1 (F := F)) Vl (Proc.devRef .tc main_v8) = Vl (Proc.devRef .tc main_v8) := by
  unfold hostOps1_1
  after_results

end Stretches

/-! ## The contents each region is entered with, from the arguments -/

section Fold

open Cert.KernelIdeal.Blocks

variable (m : (ℓ : Loc nD τ sig) → Buf (Elt Ideal) ℓ) (ρ : Dev nD → PrngReg)

/-- The launch contents of an argument. -/
theorem W0_arg (c : Dev nD) (b : Ref sig .tc) : W0 m ρ c (Proc.devRef .tc b) = m ((c : Thread nD τ).loc b) := rfl

/-- The first region finds the node features' aggregation in its first window's array. -/
theorem V3_v7 (c : Dev nD) :
    V3 m ρ c main_v7 = aggK (m ((c : Thread nD τ).loc main_arg0)) (m ((c : Thread nD τ).loc main_arg1)) := by
  show after hostOps0_2 (after hostOps0_1 (after hostOps0 (W0 m ρ c))) (Proc.devRef .tc main_v7) = _
  rw [scatter0_v7, take0_keep _ main_v3 (by decide), take0_v4, slices_v3, slices_v1, slices_keep _ main_arg0 (by decide)]
  rfl

/-- It finds the arguments it reads as launched. -/
theorem V3_arg (c : Dev nD) : ∀ b ∈ ([main_arg0, main_arg2, main_arg3, main_arg4] : List (Ref sig .tc)),
    V3 m ρ c b = m ((c : Thread nD τ).loc b) := by
  intro b hb
  show after hostOps0_2 (after hostOps0_1 (after hostOps0 (W0 m ρ c))) (Proc.devRef .tc b) = _
  have h2 : b ∈ ([main_v1, main_v3, main_arg0, main_arg2, main_arg3, main_arg4] : List (Ref sig .tc)) :=
    List.mem_cons_of_mem _ (List.mem_cons_of_mem _ hb)
  rw [scatter0_keep _ b h2, take0_keep _ b h2, slices_keep _ b hb]

/-- The hidden layer: what the first region leaves in its output array. -/
def hiddenK (x : S100000x64.Idx → Elt Ideal .f32) (ei : (⟨S2x1600000, .i32⟩ : BufTy).Contents (Elt Ideal))
    (w2 : S64x64.Idx → Elt Ideal .f32) (b3 : S64.Idx → Elt Ideal .f32) (w4 : S64x64.Idx → Elt Ideal .f32) :
    S100000x64.Idx → Elt Ideal .f32 :=
  hiddenFn (aggK x ei) x w2 w4 b3

theorem W4_v8 (c : Dev nD) : W4 m ρ c (Proc.devRef .tc main_v8)
    = hiddenK (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W4_arr m ρ c 5).trans (final0 (V3 m ρ) c)).trans ?_
  rw [V3_v7 m ρ c, V3_arg m ρ c main_arg0 (by decide), V3_arg m ρ c main_arg2 (by decide),
    V3_arg m ρ c main_arg3 (by decide), V3_arg m ρ c main_arg4 (by decide)]
  rfl

/-- The second region finds the hidden layer in its second window's array … -/
theorem V6_v8 (c : Dev nD) : V6 m ρ c main_v8 = W4 m ρ c (Proc.devRef .tc main_v8) := by
  show after hostOps1_1 (after hostOps1 (W4 m ρ c)) (Proc.devRef .tc main_v8) = _
  rw [scatter1_keep, take1_keep _ main_v8 (by decide)]

/-- … and the hidden layer's aggregation in its first. -/
theorem V6_v12 (c : Dev nD) :
    V6 m ρ c main_v12 = aggK (W4 m ρ c (Proc.devRef .tc main_v8)) (m ((c : Thread nD τ).loc main_arg1)) := by
  show after hostOps1_1 (after hostOps1 (W4 m ρ c)) (Proc.devRef .tc main_v12) = _
  rw [scatter1_v12, take1_keep _ main_v3 (by decide), take1_v9,
    W4_of_ne m ρ c main_v3 (by decide), W4_of_ne m ρ c main_v1 (by decide)]
  show scatterRows (after hostOps0_2 (after hostOps0_1 (after hostOps0 (W0 m ρ c))) (Proc.devRef .tc main_v3))
      (takeRows (W4 m ρ c (Proc.devRef .tc main_v8))
        (after hostOps0_2 (after hostOps0_1 (after hostOps0 (W0 m ρ c))) (Proc.devRef .tc main_v1))) = _
  rw [scatter0_keep _ main_v3 (by decide), take0_keep _ main_v3 (by decide), slices_v3,
    scatter0_keep _ main_v1 (by decide), take0_keep _ main_v1 (by decide), slices_v1]
  rfl

/-- It finds its weights and bias as launched: they are input windows of the region, which the region leaves as it found
    them, and nothing on the way writes an argument. -/
theorem V6_arg5 (c : Dev nD) : V6 m ρ c main_arg5 = m ((c : Thread nD τ).loc main_arg5) :=
  ((W7_arr m ρ c 2).trans (((dat1 (V6 m ρ) c).arrAt_in 2 rfl _).trans (A_eq1 (V6 m ρ) c 2))).symm.trans (W7_main_arg5 m ρ c)
theorem V6_arg6 (c : Dev nD) : V6 m ρ c main_arg6 = m ((c : Thread nD τ).loc main_arg6) :=
  ((W7_arr m ρ c 3).trans (((dat1 (V6 m ρ) c).arrAt_in 3 rfl _).trans (A_eq1 (V6 m ρ) c 3))).symm.trans (W7_main_arg6 m ρ c)
theorem V6_arg7 (c : Dev nD) : V6 m ρ c main_arg7 = m ((c : Thread nD τ).loc main_arg7) :=
  ((W7_arr m ρ c 4).trans (((dat1 (V6 m ρ) c).arrAt_in 4 rfl _).trans (A_eq1 (V6 m ρ) c 4))).symm.trans (W7_main_arg7 m ρ c)

/-- The kernel program's result as one function of its arguments. -/
def outK (x : S100000x64.Idx → Elt Ideal .f32) (ei : (⟨S2x1600000, .i32⟩ : BufTy).Contents (Elt Ideal))
    (w2 : S64x64.Idx → Elt Ideal .f32) (b3 : S64.Idx → Elt Ideal .f32) (w4 : S64x64.Idx → Elt Ideal .f32)
    (w5 : S64x64.Idx → Elt Ideal .f32) (b6 : S64.Idx → Elt Ideal .f32) (w7 : S64x64.Idx → Elt Ideal .f32) :
    S100000x64.Idx → Elt Ideal .f32 :=
  outFn (aggK (hiddenK x ei w2 b3 w4) ei) (hiddenK x ei w2 b3 w4) w5 w7 b6

/-- The result array at the last boundary is that function of the arguments. -/
theorem W7_v13 (c : Dev nD) : W7 m ρ c (Proc.devRef .tc main_v13)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W7_arr m ρ c 5).trans (final1 (V6 m ρ) c)).trans ?_
  rw [V6_v12 m ρ c, V6_v8 m ρ c, V6_arg5 m ρ c, V6_arg6 m ρ c, V6_arg7 m ρ c, W4_v8 m ρ c]
  rfl

end Fold

end Cert.KernelIdeal.HostSide

end
-- ==== Proof.RefRun.lean ====
/-
  The run of the reference program, read back as a pure term. @main is a straight line of 77 tensor operations once its four
  calls (two gathers of rows, a rectifier, and the index select the gathers share) are replaced by their bodies: two rounds of
  "gather the rows of a node array at the edges' sources, add them into a zero array at the edges' targets, apply a dense layer
  to the sum and to the array itself", the first round rectified. `agg` is one gather-and-add as a function of the node array
  and the edge array, `hidden` the first round, `out` the second over the first. `run`: from any memory with zero
  counters every weakly fair execution of @main terminates with the result buffer at `out` of the arguments' launch contents
  and every argument buffer unchanged. The operations are the same functions on both sides of every equation here, so the
  statement holds for any float values and says nothing about what those functions compute.
-/
import proofs.«178607_j18545668784680_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One aggregation step: the rows of `x` taken at the first row of `ei` (an index below zero wrapped by adding 100000; a row whose
    wrapped index lies outside `[0, 99999]` replaced by the fill value `0x7FC00000`), added into the zero array at the rows the second
    row of `ei` names. -/
def agg (x : FVec F S100000x64 .f32) (ei : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (shapeCast S1600000 (extractStridedSlice S1x1600000 ![1, 0] ei slices_S2x1600000_S1x1600000_1_0) shapeCasts_S1x1600000_S1600000))
    (select (broadcastInDim S1600000x64 ![0] bcast_S1600000_S1600000x64_0 (Host.reduce IntOp.andi (andi (cmpi .sge (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))) (broadcastInDim S1600000x1 ![] bcast_S_S1600000x1 (constantI S_ 32 0#32))) (cmpi .sle (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
      (Host.gather gather_S100000x64_S1600000x1_S1600000x64_1_0_n_n_0_1_164 x (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))))
      (broadcastInDim S1600000x64 ![] bcast_S_S1600000x64 (constant S_ .f32 0x7FC00000#32)))

/-- The hidden layer: `max (agg x ei · w2ᵀ + b3 + x · w4ᵀ) 0`. -/
def hidden (x : FVec F S100000x64 .f32) (ei : IVec S2x1600000 32) (w2 : FVec F S64x64 .f32) (b3 : FVec F S64 .f32)
    (w4 : FVec F S64x64 .f32) : FVec F S100000x64 .f32 :=
  maximumf (addf (addf (Host.dotGeneral dot_S100000x64_S64x64_S100000x64_1_0_0_1_n_n none (agg x ei) (transpose S64x64 [1, 0] w2 transposes_S64x64_S64x64_1_0)) (broadcastInDim S100000x64 ![0, 1] bcast_S1x64_S100000x64_0_1 (broadcastInDim S1x64 ![1] bcast_S64_S1x64_1 b3))) (Host.dotGeneral dot_S100000x64_S64x64_S100000x64_1_0_0_1_n_n none x (transpose S64x64 [1, 0] w4 transposes_S64x64_S64x64_1_0)))
    (broadcastInDim S100000x64 ![] bcast_S_S100000x64 (constant S_ .f32 0x00000000#32))

/-- The output layer: `agg h ei · w5ᵀ + b6 + h · w7ᵀ` at `h` the hidden layer. -/
def out (x : FVec F S100000x64 .f32) (ei : IVec S2x1600000 32) (w2 : FVec F S64x64 .f32) (b3 : FVec F S64 .f32)
    (w4 : FVec F S64x64 .f32) (w5 : FVec F S64x64 .f32) (b6 : FVec F S64 .f32) (w7 : FVec F S64x64 .f32) :
    FVec F S100000x64 .f32 :=
  addf (addf (Host.dotGeneral dot_S100000x64_S64x64_S100000x64_1_0_0_1_n_n none (agg (hidden x ei w2 b3 w4) ei) (transpose S64x64 [1, 0] w5 transposes_S64x64_S64x64_1_0)) (broadcastInDim S100000x64 ![0, 1] bcast_S1x64_S100000x64_0_1 (broadcastInDim S1x64 ![1] bcast_S64_S1x64_1 b6))) (Host.dotGeneral dot_S100000x64_S64x64_S100000x64_1_0_0_1_n_n none (hidden x ei w2 b3 w4) (transpose S64x64 [1, 0] w7 transposes_S64x64_S64x64_1_0))

/-- The aggregation step over the two rows of the index array already taken: `agg x ei` is this at `ei`'s rows. -/
def aggRows (x : FVec F S100000x64 .f32) (r0 r1 : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 r1)
    (select (broadcastInDim S1600000x64 ![0] bcast_S1600000_S1600000x64_0 (Host.reduce IntOp.andi (andi (cmpi .sge (broadcastInDim S1600000x1 ![0] bcast_S1600000_S1600000x1_0 (select (cmpi .slt r0 (broadcastInDim S1600000 ![] bcast_S_S1600000 (constantI S_ 32 0#32))) (addi r0 (broadcastInDim S1600000 ![] bcast_S_S1600000 (constantI S_ 32 100000#32))) r0)) (broadcastInDim S1600000x1 ![] bcast_S_S1600000x1 (constantI S_ 32 0#32))) (cmpi .sle (broadcastInDim S1600000x1 ![0] bcast_S1600000_S1600000x1_0 (select (cmpi .slt r0 (broadcastInDim S1600000 ![] bcast_S_S1600000 (constantI S_ 32 0#32))) (addi r0 (broadcastInDim S1600000 ![] bcast_S_S1600000 (constantI S_ 32 100000#32))) r0)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
      (Host.gather gather_S100000x64_S1600000x1_S1600000x64_1_0_n_n_0_1_164 x (broadcastInDim S1600000x1 ![0] bcast_S1600000_S1600000x1_0 (select (cmpi .slt r0 (broadcastInDim S1600000 ![] bcast_S_S1600000 (constantI S_ 32 0#32))) (addi r0 (broadcastInDim S1600000 ![] bcast_S_S1600000 (constantI S_ 32 100000#32))) r0)))
      (broadcastInDim S1600000x64 ![] bcast_S_S1600000x64 (constant S_ .f32 0x7FC00000#32)))

theorem agg_eq (x : FVec F S100000x64 .f32) (ei : IVec S2x1600000 32) :
    agg x ei = aggRows x (shapeCast S1600000 (extractStridedSlice S1x1600000 ![0, 0] ei slices_S2x1600000_S1x1600000_0_0) shapeCasts_S1x1600000_S1600000) (shapeCast S1600000 (extractStridedSlice S1x1600000 ![1, 0] ei slices_S2x1600000_S1x1600000_1_0) shapeCasts_S1x1600000_S1600000) := rfl

/-- @main's 77 operations in order, each call's callee listed at the call site over that call's buffers. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_call0_c (constantI S_ 32 0#32 : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_v1 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 (constantI S_ 32 100000#32 : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg0 main_call0_v5 main_call0_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call0_v12 main_call0_v14 ((broadcastInDim S1600000x64 ![0] bcast_S1600000_S1600000x64_0) : (⟨S1600000, .i1⟩ : BufTy).Contents (Elt F) → (⟨S1600000x64, .i1⟩ : BufTy).Contents (Elt F)),
    StableHlo.nullary main_call0_cst (constant S_ .f32 0x7FC00000#32 : (⟨S_, .f32⟩ : BufTy).Contents (Elt F)),
    StableHlo.unary main_call0_cst main_call0_v15 ((broadcastInDim S1600000x64 ![] bcast_S_S1600000x64) : (⟨S_, .f32⟩ : BufTy).Contents (Elt F) → (⟨S1600000x64, .f32⟩ : BufTy).Contents (Elt F)),
    StableHlo.ternary main_call0_v14 main_call0_v13 main_call0_v15 main_v4 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v8 ((transpose S64x64 [1, 0] · transposes_S64x64_S64x64_1_0) : (⟨S64x64, .f32⟩ : BufTy).Contents (Elt F) → (⟨S64x64, .f32⟩ : BufTy).Contents (Elt F)),
    StableHlo.binary main_v7 main_v8 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.unary main_arg4 main_v13 ((transpose S64x64 [1, 0] · transposes_S64x64_S64x64_1_0) : (⟨S64x64, .f32⟩ : BufTy).Contents (Elt F) → (⟨S64x64, .f32⟩ : BufTy).Contents (Elt F)),
    StableHlo.binary main_arg0 main_v13 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v12 main_v14 main_v15 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S100000x64 ![] bcast_S_S100000x64) : (⟨S_, .f32⟩ : BufTy).Contents (Elt F) → (⟨S100000x64, .f32⟩ : BufTy).Contents (Elt F)),
    StableHlo.binary main_v15 main_call1_v0 main_v16 (maximumf : (⟨S100000x64, .f32⟩ : BufTy).Contents (Elt F) → (⟨S100000x64, .f32⟩ : BufTy).Contents (Elt F) → (⟨S100000x64, .f32⟩ : BufTy).Contents (Elt F)),
    StableHlo.nullary main_call2_c (constantI S_ 32 0#32 : (⟨S_, .i32⟩ : BufTy).Contents (Elt F)),
    StableHlo.unary main_call2_c main_call2_v0 ((broadcastInDim S1600000 ![] bcast_S_S1600000) : (⟨S_, .i32⟩ : BufTy).Contents (Elt F) → (⟨S1600000, .i32⟩ : BufTy).Contents (Elt F)),
    StableHlo.binary main_v1 main_call2_v0 main_call2_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call2_c_0 (constantI S_ 32 100000#32 : (⟨S_, .i32⟩ : BufTy).Contents (Elt F)),
    StableHlo.unary main_call2_c_0 main_call2_v2 ((broadcastInDim S1600000 ![] bcast_S_S1600000) : (⟨S_, .i32⟩ : BufTy).Contents (Elt F) → (⟨S1600000, .i32⟩ : BufTy).Contents (Elt F)),
    StableHlo.binary main_v1 main_call2_v2 main_call2_v3 (addi : (⟨S1600000, .i32⟩ : BufTy).Contents (Elt F) → (⟨S1600000, .i32⟩ : BufTy).Contents (Elt F) → (⟨S1600000, .i32⟩ : BufTy).Contents (Elt F)),
    StableHlo.ternary main_call2_v1 main_call2_v3 main_v1 main_call2_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call2_v4 main_call2_v5 ((broadcastInDim S1600000x1 ![0] bcast_S1600000_S1600000x1_0) : (⟨S1600000, .i32⟩ : BufTy).Contents (Elt F) → (⟨S1600000x1, .i32⟩ : BufTy).Contents (Elt F)),
    StableHlo.nullary main_call2_c_1 (constantI S1 32 99999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 ((broadcastInDim S1600000x1 ![] bcast_S_S1600000x1) : (⟨S_, .i32⟩ : BufTy).Contents (Elt F) → (⟨S1600000x1, .i32⟩ : BufTy).Contents (Elt F)),
    StableHlo.binary main_call2_v5 main_call2_v6 main_call2_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call2_v5 main_call2_v9 main_call2_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call2_v7 main_call2_v10 main_call2_v11 (andi : (⟨S1600000x1, .i1⟩ : BufTy).Contents (Elt F) → (⟨S1600000x1, .i1⟩ : BufTy).Contents (Elt F) → (⟨S1600000x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_v16 main_call2_v5 main_call2_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call2_v12 main_call2_v14 ((broadcastInDim S1600000x64 ![0] bcast_S1600000_S1600000x64_0) : (⟨S1600000, .i1⟩ : BufTy).Contents (Elt F) → (⟨S1600000x64, .i1⟩ : BufTy).Contents (Elt F)),
    StableHlo.nullary main_call2_cst (constant S_ .f32 0x7FC00000#32 : (⟨S_, .f32⟩ : BufTy).Contents (Elt F)),
    StableHlo.unary main_call2_cst main_call2_v15 ((broadcastInDim S1600000x64 ![] bcast_S_S1600000x64) : (⟨S_, .f32⟩ : BufTy).Contents (Elt F) → (⟨S1600000x64, .f32⟩ : BufTy).Contents (Elt F)),
    StableHlo.ternary main_call2_v14 main_call2_v13 main_call2_v15 main_v17 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)),
    StableHlo.nullary main_cst_0 (constant S_ .f32 0x00000000#32),
    StableHlo.unary main_cst_0 main_v18 (broadcastInDim S100000x64 ![] bcast_S_S100000x64 : (⟨S_, .f32⟩ : BufTy).Contents (Elt F) → (⟨S100000x64, .f32⟩ : BufTy).Contents (Elt F)),
    StableHlo.unary main_v3 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg5 main_v21 ((transpose S64x64 [1, 0] · transposes_S64x64_S64x64_1_0) : (⟨S64x64, .f32⟩ : BufTy).Contents (Elt F) → (⟨S64x64, .f32⟩ : BufTy).Contents (Elt F)),
    StableHlo.binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.unary main_arg7 main_v26 ((transpose S64x64 [1, 0] · transposes_S64x64_S64x64_1_0) : (⟨S64x64, .f32⟩ : BufTy).Contents (Elt F) → (⟨S64x64, .f32⟩ : BufTy).Contents (Elt F)),
    StableHlo.binary main_v16 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]

attribute [local irreducible] Host.gather Host.scatterAdd Host.reduce in
set_option maxRecDepth 8192 in
set_option maxHeartbeats 2000000 in
/-- @main is that straight line: a call is its callee's body over the call's buffers, a typed reference's transport of contents
    is the identity at a literal buffer, and sequencing reassociates — all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub ..⟩

/-! ## The line in four stretches

The fold over the whole line at the result buffer is computed a stretch at a time, each stretch's results stated over ANY
contents `W` at its start: what a stretch computes depends on the earlier ones only through the buffers it reads. -/

/-- The two rows of the index array, the first gather (@_take) and its scatter-add: through %7 (31 operations). -/
abbrev ops1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_call0_c (constantI S_ 32 0#32 : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_v1 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 (constantI S_ 32 100000#32 : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 (constantI S1 32 99999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg0 main_call0_v5 main_call0_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call0_v12 main_call0_v14 ((broadcastInDim S1600000x64 ![0] bcast_S1600000_S1600000x64_0) : (⟨S1600000, .i1⟩ : BufTy).Contents (Elt F) → (⟨S1600000x64, .i1⟩ : BufTy).Contents (Elt F)),
    StableHlo.nullary main_call0_cst (constant S_ .f32 0x7FC00000#32 : (⟨S_, .f32⟩ : BufTy).Contents (Elt F)),
    StableHlo.unary main_call0_cst main_call0_v15 ((broadcastInDim S1600000x64 ![] bcast_S_S1600000x64) : (⟨S_, .f32⟩ : BufTy).Contents (Elt F) → (⟨S1600000x64, .f32⟩ : BufTy).Contents (Elt F)),
    StableHlo.ternary main_call0_v14 main_call0_v13 main_call0_v15 main_v4 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The first dense layer and its rectifier (@relu): %8 through %16 (11 operations). -/
abbrev ops2 : List (HloOp τ sig (Elt F)) :=
  [ StableHlo.unary main_arg2 main_v8 ((transpose S64x64 [1, 0] · transposes_S64x64_S64x64_1_0) : (⟨S64x64, .f32⟩ : BufTy).Contents (Elt F) → (⟨S64x64, .f32⟩ : BufTy).Contents (Elt F)),
    StableHlo.binary main_v7 main_v8 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.unary main_arg4 main_v13 ((transpose S64x64 [1, 0] · transposes_S64x64_S64x64_1_0) : (⟨S64x64, .f32⟩ : BufTy).Contents (Elt F) → (⟨S64x64, .f32⟩ : BufTy).Contents (Elt F)),
    StableHlo.binary main_arg0 main_v13 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v12 main_v14 main_v15 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S100000x64 ![] bcast_S_S100000x64) : (⟨S_, .f32⟩ : BufTy).Contents (Elt F) → (⟨S100000x64, .f32⟩ : BufTy).Contents (Elt F)),
    StableHlo.binary main_v15 main_call1_v0 main_v16 (maximumf : (⟨S100000x64, .f32⟩ : BufTy).Contents (Elt F) → (⟨S100000x64, .f32⟩ : BufTy).Contents (Elt F) → (⟨S100000x64, .f32⟩ : BufTy).Contents (Elt F)) ]

/-- The second gather (@_take_0) and its scatter-add: %17 through %20 (27 operations). -/
abbrev ops3 : List (HloOp τ sig (Elt F)) :=
  [ StableHlo.nullary main_call2_c (constantI S_ 32 0#32 : (⟨S_, .i32⟩ : BufTy).Contents (Elt F)),
    StableHlo.unary main_call2_c main_call2_v0 ((broadcastInDim S1600000 ![] bcast_S_S1600000) : (⟨S_, .i32⟩ : BufTy).Contents (Elt F) → (⟨S1600000, .i32⟩ : BufTy).Contents (Elt F)),
    StableHlo.binary main_v1 main_call2_v0 main_call2_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call2_c_0 (constantI S_ 32 100000#32 : (⟨S_, .i32⟩ : BufTy).Contents (Elt F)),
    StableHlo.unary main_call2_c_0 main_call2_v2 ((broadcastInDim S1600000 ![] bcast_S_S1600000) : (⟨S_, .i32⟩ : BufTy).Contents (Elt F) → (⟨S1600000, .i32⟩ : BufTy).Contents (Elt F)),
    StableHlo.binary main_v1 main_call2_v2 main_call2_v3 (addi : (⟨S1600000, .i32⟩ : BufTy).Contents (Elt F) → (⟨S1600000, .i32⟩ : BufTy).Contents (Elt F) → (⟨S1600000, .i32⟩ : BufTy).Contents (Elt F)),
    StableHlo.ternary main_call2_v1 main_call2_v3 main_v1 main_call2_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call2_v4 main_call2_v5 ((broadcastInDim S1600000x1 ![0] bcast_S1600000_S1600000x1_0) : (⟨S1600000, .i32⟩ : BufTy).Contents (Elt F) → (⟨S1600000x1, .i32⟩ : BufTy).Contents (Elt F)),
    StableHlo.nullary main_call2_c_1 (constantI S1 32 99999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 ((broadcastInDim S1600000x1 ![] bcast_S_S1600000x1) : (⟨S_, .i32⟩ : BufTy).Contents (Elt F) → (⟨S1600000x1, .i32⟩ : BufTy).Contents (Elt F)),
    StableHlo.binary main_call2_v5 main_call2_v6 main_call2_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call2_v5 main_call2_v9 main_call2_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call2_v7 main_call2_v10 main_call2_v11 (andi : (⟨S1600000x1, .i1⟩ : BufTy).Contents (Elt F) → (⟨S1600000x1, .i1⟩ : BufTy).Contents (Elt F) → (⟨S1600000x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_v16 main_call2_v5 main_call2_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_call2_v12 main_call2_v14 ((broadcastInDim S1600000x64 ![0] bcast_S1600000_S1600000x64_0) : (⟨S1600000, .i1⟩ : BufTy).Contents (Elt F) → (⟨S1600000x64, .i1⟩ : BufTy).Contents (Elt F)),
    StableHlo.nullary main_call2_cst (constant S_ .f32 0x7FC00000#32 : (⟨S_, .f32⟩ : BufTy).Contents (Elt F)),
    StableHlo.unary main_call2_cst main_call2_v15 ((broadcastInDim S1600000x64 ![] bcast_S_S1600000x64) : (⟨S_, .f32⟩ : BufTy).Contents (Elt F) → (⟨S1600000x64, .f32⟩ : BufTy).Contents (Elt F)),
    StableHlo.ternary main_call2_v14 main_call2_v13 main_call2_v15 main_v17 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)),
    StableHlo.nullary main_cst_0 (constant S_ .f32 0x00000000#32),
    StableHlo.unary main_cst_0 main_v18 (broadcastInDim S100000x64 ![] bcast_S_S100000x64 : (⟨S_, .f32⟩ : BufTy).Contents (Elt F) → (⟨S100000x64, .f32⟩ : BufTy).Contents (Elt F)),
    StableHlo.unary main_v3 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The second dense layer: %21 through %28 (8 operations). -/
abbrev ops4 : List (HloOp τ sig (Elt F)) :=
  [ StableHlo.unary main_arg5 main_v21 ((transpose S64x64 [1, 0] · transposes_S64x64_S64x64_1_0) : (⟨S64x64, .f32⟩ : BufTy).Contents (Elt F) → (⟨S64x64, .f32⟩ : BufTy).Contents (Elt F)),
    StableHlo.binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.unary main_arg7 main_v26 ((transpose S64x64 [1, 0] · transposes_S64x64_S64x64_1_0) : (⟨S64x64, .f32⟩ : BufTy).Contents (Elt F) → (⟨S64x64, .f32⟩ : BufTy).Contents (Elt F)),
    StableHlo.binary main_v16 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]

theorem ops_split : (ops : List (HloOp τ sig (Elt F))) = ops1 ++ ops2 ++ ops3 ++ ops4 := rfl

/-- The fold over two lines one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

attribute [local irreducible] Host.gather Host.scatterAdd Host.reduce in
set_option maxRecDepth 8192 in
set_option maxHeartbeats 2000000 in
/-- The first stretch leaves the aggregation of %arg0 at %7. -/
theorem s1_v7 (W : Valuation τ sig (Elt F)) :
    after ops1 W (main_v7 : DevRef τ sig) = agg (W (main_arg0 : DevRef τ sig)) (W (main_arg1 : DevRef τ sig)) := by
  after_results_simp
  unfold agg
  rfl

set_option maxRecDepth 8192 in
set_option maxHeartbeats 2000000 in
/-- The first stretch leaves the first row of the index array at %1. -/
theorem s1_v1 (W : Valuation τ sig (Elt F)) :
    after ops1 W (main_v1 : DevRef τ sig) = (shapeCast S1600000 (extractStridedSlice S1x1600000 ![0, 0] (W (main_arg1 : DevRef τ sig)) slices_S2x1600000_S1x1600000_0_0) shapeCasts_S1x1600000_S1600000) := by
  after_results_simp
  rfl

set_option maxRecDepth 8192 in
set_option maxHeartbeats 2000000 in
/-- The first stretch leaves the second row of the index array at %3. -/
theorem s1_v3 (W : Valuation τ sig (Elt F)) :
    after ops1 W (main_v3 : DevRef τ sig) = (shapeCast S1600000 (extractStridedSlice S1x1600000 ![1, 0] (W (main_arg1 : DevRef τ sig)) slices_S2x1600000_S1x1600000_1_0) shapeCasts_S1x1600000_S1600000) := by
  after_results_simp
  rfl

set_option maxRecDepth 8192 in
set_option maxHeartbeats 2000000 in
theorem s1_arg0 (W : Valuation τ sig (Elt F)) :
    after ops1 W (main_arg0 : DevRef τ sig) = W (main_arg0 : DevRef τ sig) := by
  after_results_simp

set_option maxRecDepth 8192 in
set_option maxHeartbeats 2000000 in
theorem s1_arg2 (W : Valuation τ sig (Elt F)) :
    after ops1 W (main_arg2 : DevRef τ sig) = W (main_arg2 : DevRef τ sig) := by
  after_results_simp

set_option maxRecDepth 8192 in
set_option maxHeartbeats 2000000 in
theorem s1_arg3 (W : Valuation τ sig (Elt F)) :
    after ops1 W (main_arg3 : DevRef τ sig) = W (main_arg3 : DevRef τ sig) := by
  after_results_simp

set_option maxRecDepth 8192 in
set_option maxHeartbeats 2000000 in
theorem s1_arg4 (W : Valuation τ sig (Elt F)) :
    after ops1 W (main_arg4 : DevRef τ sig) = W (main_arg4 : DevRef τ sig) := by
  after_results_simp

set_option maxRecDepth 8192 in
set_option maxHeartbeats 2000000 in
theorem s1_arg5 (W : Valuation τ sig (Elt F)) :
    after ops1 W (main_arg5 : DevRef τ sig) = W (main_arg5 : DevRef τ sig) := by
  after_results_simp

set_option maxRecDepth 8192 in
set_option maxHeartbeats 2000000 in
theorem s1_arg6 (W : Valuation τ sig (Elt F)) :
    after ops1 W (main_arg6 : DevRef τ sig) = W (main_arg6 : DevRef τ sig) := by
  after_results_simp

set_option maxRecDepth 8192 in
set_option maxHeartbeats 2000000 in
theorem s1_arg7 (W : Valuation τ sig (Elt F)) :
    after ops1 W (main_arg7 : DevRef τ sig) = W (main_arg7 : DevRef τ sig) := by
  after_results_simp

attribute [local irreducible] Host.gather Host.scatterAdd Host.reduce in
set_option maxRecDepth 8192 in
set_option maxHeartbeats 2000000 in
/-- The second stretch leaves the rectified dense layer of %7 and %arg0 at %16. -/
theorem s2_v16 (W : Valuation τ sig (Elt F)) :
    after ops2 W (main_v16 : DevRef τ sig)
      = maximumf (addf (addf (Host.dotGeneral dot_S100000x64_S64x64_S100000x64_1_0_0_1_n_n none (W (main_v7 : DevRef τ sig)) (transpose S64x64 [1, 0] (W (main_arg2 : DevRef τ sig)) transposes_S64x64_S64x64_1_0)) (broadcastInDim S100000x64 ![0, 1] bcast_S1x64_S100000x64_0_1 (broadcastInDim S1x64 ![1] bcast_S64_S1x64_1 (W (main_arg3 : DevRef τ sig))))) (Host.dotGeneral dot_S100000x64_S64x64_S100000x64_1_0_0_1_n_n none (W (main_arg0 : DevRef τ sig)) (transpose S64x64 [1, 0] (W (main_arg4 : DevRef τ sig)) transposes_S64x64_S64x64_1_0)))
      (broadcastInDim S100000x64 ![] bcast_S_S100000x64 (constant S_ .f32 0x00000000#32)) := by
  after_results_simp

set_option maxRecDepth 8192 in
set_option maxHeartbeats 2000000 in
theorem s2_v1 (W : Valuation τ sig (Elt F)) :
    after ops2 W (main_v1 : DevRef τ sig) = W (main_v1 : DevRef τ sig) := by
  after_results_simp

set_option maxRecDepth 8192 in
set_option maxHeartbeats 2000000 in
theorem s2_v3 (W : Valuation τ sig (Elt F)) :
    after ops2 W (main_v3 : DevRef τ sig) = W (main_v3 : DevRef τ sig) := by
  after_results_simp

set_option maxRecDepth 8192 in
set_option maxHeartbeats 2000000 in
theorem s2_arg5 (W : Valuation τ sig (Elt F)) :
    after ops2 W (main_arg5 : DevRef τ sig) = W (main_arg5 : DevRef τ sig) := by
  after_results_simp

set_option maxRecDepth 8192 in
set_option maxHeartbeats 2000000 in
theorem s2_arg6 (W : Valuation τ sig (Elt F)) :
    after ops2 W (main_arg6 : DevRef τ sig) = W (main_arg6 : DevRef τ sig) := by
  after_results_simp

set_option maxRecDepth 8192 in
set_option maxHeartbeats 2000000 in
theorem s2_arg7 (W : Valuation τ sig (Elt F)) :
    after ops2 W (main_arg7 : DevRef τ sig) = W (main_arg7 : DevRef τ sig) := by
  after_results_simp

attribute [local irreducible] Host.gather Host.scatterAdd Host.reduce in
set_option maxRecDepth 8192 in
set_option maxHeartbeats 2000000 in
/-- The third stretch leaves the aggregation of %16, over the rows at %1 and %3, at %20. -/
theorem s3_v20 (W : Valuation τ sig (Elt F)) :
    after ops3 W (main_v20 : DevRef τ sig) = aggRows (W (main_v16 : DevRef τ sig)) (W (main_v1 : DevRef τ sig)) (W (main_v3 : DevRef τ sig)) := by
  after_results_simp
  unfold aggRows
  rfl

set_option maxRecDepth 8192 in
set_option maxHeartbeats 2000000 in
theorem s3_v16 (W : Valuation τ sig (Elt F)) :
    after ops3 W (main_v16 : DevRef τ sig) = W (main_v16 : DevRef τ sig) := by
  after_results_simp

set_option maxRecDepth 8192 in
set_option maxHeartbeats 2000000 in
theorem s3_arg5 (W : Valuation τ sig (Elt F)) :
    after ops3 W (main_arg5 : DevRef τ sig) = W (main_arg5 : DevRef τ sig) := by
  after_results_simp

set_option maxRecDepth 8192 in
set_option maxHeartbeats 2000000 in
theorem s3_arg6 (W : Valuation τ sig (Elt F)) :
    after ops3 W (main_arg6 : DevRef τ sig) = W (main_arg6 : DevRef τ sig) := by
  after_results_simp

set_option maxRecDepth 8192 in
set_option maxHeartbeats 2000000 in
theorem s3_arg7 (W : Valuation τ sig (Elt F)) :
    after ops3 W (main_arg7 : DevRef τ sig) = W (main_arg7 : DevRef τ sig) := by
  after_results_simp

attribute [local irreducible] Host.gather Host.scatterAdd Host.reduce in
set_option maxRecDepth 8192 in
set_option maxHeartbeats 2000000 in
/-- The fourth stretch leaves the dense layer of %20 and %16 at %28. -/
theorem s4_v28 (W : Valuation τ sig (Elt F)) :
    after ops4 W (main_v28 : DevRef τ sig)
      = addf (addf (Host.dotGeneral dot_S100000x64_S64x64_S100000x64_1_0_0_1_n_n none (W (main_v20 : DevRef τ sig)) (transpose S64x64 [1, 0] (W (main_arg5 : DevRef τ sig)) transposes_S64x64_S64x64_1_0)) (broadcastInDim S100000x64 ![0, 1] bcast_S1x64_S100000x64_0_1 (broadcastInDim S1x64 ![1] bcast_S64_S1x64_1 (W (main_arg6 : DevRef τ sig))))) (Host.dotGeneral dot_S100000x64_S64x64_S100000x64_1_0_0_1_n_n none (W (main_v16 : DevRef τ sig)) (transpose S64x64 [1, 0] (W (main_arg7 : DevRef τ sig)) transposes_S64x64_S64x64_1_0)) := by
  after_results_simp

attribute [local irreducible] Host.gather Host.scatterAdd Host.reduce in
set_option maxRecDepth 8192 in
set_option maxHeartbeats 2000000 in
/-- The fold over the whole line at the result buffer is `out` of the argument contents: the four stretches composed, each
    read at the buffers the next one reads. -/
theorem out_eq (V : Valuation τ sig (Elt F)) :
    after ops V (main_v28 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, after_append, after_append, after_append, s4_v28, s3_v20, s3_v16, s3_arg5, s3_arg6, s3_arg7,
    s2_v16, s2_v1, s2_v3, s2_arg5, s2_arg6, s2_arg7, s1_v7, s1_v1, s1_v3, s1_arg0, s1_arg2, s1_arg3, s1_arg4, s1_arg5, s1_arg6, s1_arg7]
  unfold out hidden
  rfl

set_option maxRecDepth 8192 in
set_option maxHeartbeats 2000000 in
theorem arg0_eq (V : Valuation τ sig (Elt F)) :
    after ops V (main_arg0 : DevRef τ sig) = V (main_arg0 : DevRef τ sig) := by
  after_results_simp

set_option maxRecDepth 8192 in
set_option maxHeartbeats 2000000 in
theorem arg1_eq (V : Valuation τ sig (Elt F)) :
    after ops V (main_arg1 : DevRef τ sig) = V (main_arg1 : DevRef τ sig) := by
  after_results_simp

set_option maxRecDepth 8192 in
set_option maxHeartbeats 2000000 in
theorem arg2_eq (V : Valuation τ sig (Elt F)) :
    after ops V (main_arg2 : DevRef τ sig) = V (main_arg2 : DevRef τ sig) := by
  after_results_simp

set_option maxRecDepth 8192 in
set_option maxHeartbeats 2000000 in
theorem arg3_eq (V : Valuation τ sig (Elt F)) :
    after ops V (main_arg3 : DevRef τ sig) = V (main_arg3 : DevRef τ sig) := by
  after_results_simp

set_option maxRecDepth 8192 in
set_option maxHeartbeats 2000000 in
theorem arg4_eq (V : Valuation τ sig (Elt F)) :
    after ops V (main_arg4 : DevRef τ sig) = V (main_arg4 : DevRef τ sig) := by
  after_results_simp

set_option maxRecDepth 8192 in
set_option maxHeartbeats 2000000 in
theorem arg5_eq (V : Valuation τ sig (Elt F)) :
    after ops V (main_arg5 : DevRef τ sig) = V (main_arg5 : DevRef τ sig) := by
  after_results_simp

set_option maxRecDepth 8192 in
set_option maxHeartbeats 2000000 in
theorem arg6_eq (V : Valuation τ sig (Elt F)) :
    after ops V (main_arg6 : DevRef τ sig) = V (main_arg6 : DevRef τ sig) := by
  after_results_simp

set_option maxRecDepth 8192 in
set_option maxHeartbeats 2000000 in
theorem arg7_eq (V : Valuation τ sig (Elt F)) :
    after ops V (main_arg7 : DevRef τ sig) = V (main_arg7 : DevRef τ sig) := by
  after_results_simp

/-- On every device, for any float values, from any memory with zero counters: every weakly fair execution of @main terminates
    with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.Bridge.lean ====
/-
  The two programs compute one function of their arguments.

  Both aggregate with the same host operations (rows taken at the edges' sources, added at the edges' destinations), so
  the aggregation is carried as one function and never opened: the two programs' terms for it differ only in which
  program states the shape facts the operations cite. Around it each layer is
      (A · Wrelᵀ + b) + X · Wrootᵀ,    the hidden one followed by the positive part,
  which the reference spells with host products against transposed weights and a bias laid along the columns, and the
  kernel program block by block with products into zeros; both are the layer function of the whole arrays, added in
  the same order, so no law of the extended reals beyond the two readings of a matrix product is used and the inputs'
  finiteness is never needed.
-/
import proofs.«178607_j18545668784680_1_alg».proof.Defs
import proofs.«178607_j18545668784680_1_alg».proof.Proof.KernelHost
import proofs.«178607_j18545668784680_1_alg».proof.Proof.RefRun
import proofs.«178607_j18545668784680_1_alg».proof.Proof.Layer

set_option maxRecDepth 16384

noncomputable section

namespace Cert.Bridge

open Idealize.ShloMosaic

attribute [local irreducible] Host.reduce Host.gather Host.scatterAdd

/-- The reference's aggregation is the kernel program's: the same operations in the same order. -/
theorem agg_eq (x : FVec Ideal Cert.KernelIdeal.S100000x64 .f32) (ei : IVec Cert.KernelIdeal.S2x1600000 32) :
    Cert.ReferenceIdeal.RefRun.agg (F := Ideal) x ei = Cert.KernelIdeal.HostSide.aggK (F := Ideal) x ei := by
  unfold Cert.ReferenceIdeal.RefRun.agg Cert.KernelIdeal.HostSide.aggK Cert.KernelIdeal.HostSide.scatterRows
    Cert.KernelIdeal.HostSide.takeRows Cert.KernelIdeal.HostSide.wrapCol Cert.KernelIdeal.HostSide.srcRow
    Cert.KernelIdeal.HostSide.dstRow
  rfl

/-- The reference's hidden layer is what the first kernel region leaves. -/
theorem hidden_eq (x : FVec Ideal Cert.KernelIdeal.S100000x64 .f32) (ei : IVec Cert.KernelIdeal.S2x1600000 32)
    (w2 : FVec Ideal Cert.KernelIdeal.S64x64 .f32) (b3 : FVec Ideal Cert.KernelIdeal.S64 .f32)
    (w4 : FVec Ideal Cert.KernelIdeal.S64x64 .f32) :
    Cert.ReferenceIdeal.RefRun.hidden (F := Ideal) x ei w2 b3 w4 = Cert.KernelIdeal.HostSide.hiddenK x ei w2 b3 w4 := by
  unfold Cert.ReferenceIdeal.RefRun.hidden Cert.KernelIdeal.HostSide.hiddenK
  rw [agg_eq]
  exact Cert.GraphConv.host_convRelu (M := 100000) (K := 64) (N := 64)
    Cert.ReferenceIdeal.dot_S100000x64_S64x64_S100000x64_1_0_0_1_n_n rfl rfl rfl rfl rfl rfl
    Cert.ReferenceIdeal.Facts₀.transposes_S64x64_S64x64_1_0 Cert.ReferenceIdeal.Facts₀.bcast_S64_S1x64_1
    Cert.ReferenceIdeal.Facts₀.bcast_S1x64_S100000x64_0_1 Cert.KernelIdeal.Facts₀.shapeCasts_S64_S1x64
    Cert.ReferenceIdeal.Facts₀.bcast_S_S100000x64 (Cert.KernelIdeal.HostSide.aggK (F := Ideal) x ei) x w2 w4 b3

/-- The reference's result is the kernel program's. -/
theorem out_eq (x : FVec Ideal Cert.KernelIdeal.S100000x64 .f32) (ei : IVec Cert.KernelIdeal.S2x1600000 32)
    (w2 : FVec Ideal Cert.KernelIdeal.S64x64 .f32) (b3 : FVec Ideal Cert.KernelIdeal.S64 .f32)
    (w4 w5 : FVec Ideal Cert.KernelIdeal.S64x64 .f32) (b6 : FVec Ideal Cert.KernelIdeal.S64 .f32)
    (w7 : FVec Ideal Cert.KernelIdeal.S64x64 .f32) :
    Cert.ReferenceIdeal.RefRun.out (F := Ideal) x ei w2 b3 w4 w5 b6 w7
      = Cert.KernelIdeal.HostSide.outK x ei w2 b3 w4 w5 b6 w7 := by
  unfold Cert.ReferenceIdeal.RefRun.out Cert.KernelIdeal.HostSide.outK
  rw [hidden_eq, agg_eq]
  exact Cert.GraphConv.host_conv (M := 100000) (K := 64) (N := 64)
    Cert.ReferenceIdeal.dot_S100000x64_S64x64_S100000x64_1_0_0_1_n_n rfl rfl rfl rfl rfl rfl
    Cert.ReferenceIdeal.Facts₀.transposes_S64x64_S64x64_1_0 Cert.ReferenceIdeal.Facts₀.bcast_S64_S1x64_1
    Cert.ReferenceIdeal.Facts₀.bcast_S1x64_S100000x64_0_1 Cert.KernelIdeal.Facts₀.shapeCasts_S64_S1x64
    (Cert.KernelIdeal.HostSide.aggK (F := Ideal) (Cert.KernelIdeal.HostSide.hiddenK x ei w2 b3 w4) ei)
    (Cert.KernelIdeal.HostSide.hiddenK x ei w2 b3 w4) w5 w7 b6

end Cert.Bridge

end
-- ==== Proof.lean ====
/-
  The certificate: a two-layer graph convolution as a kernel program against its plain reference, over the extended reals.

  Each layer aggregates the features of every node's in-neighbours (rows taken at the edges' sources, added at the
  edges' destinations: host operations in both programs) and returns  (agg · Wrelᵀ + b) + X · Wrootᵀ;  the hidden
  layer also takes the positive part. The kernel program computes the dense half of each layer in a kernel region
  gridded over ten blocks of 10000 rows; the reference computes it with host products.

  The three frames: the two kernel programs' are the generated frame certificates; the reference has no kernel, and its
  frame is its run with the result dropped. The ideal pass rewrote nothing, so there is nothing to preserve. The value
  claim: the kernel program's result array, read off its frame run region by region, and the reference's result, read
  off its run, are the same function of the eight arguments (Proof/Bridge.lean); no input needs to be finite for that.
-/
import proofs.«178607_j18545668784680_1_alg».proof.Defs
import proofs.«178607_j18545668784680_1_alg».proof.Proof.Gen.Kernel
import proofs.«178607_j18545668784680_1_alg».proof.Proof.Gen.Kernel.Skeleton
import proofs.«178607_j18545668784680_1_alg».proof.Proof.Gen.Kernel.Launch
import proofs.«178607_j18545668784680_1_alg».proof.Proof.Gen.Kernel.Points
import proofs.«178607_j18545668784680_1_alg».proof.Proof.Gen.Kernel.Frame
import proofs.«178607_j18545668784680_1_alg».proof.Proof.Gen.KernelIdeal
import proofs.«178607_j18545668784680_1_alg».proof.Proof.Gen.KernelIdeal.Skeleton
import proofs.«178607_j18545668784680_1_alg».proof.Proof.Gen.KernelIdeal.Launch
import proofs.«178607_j18545668784680_1_alg».proof.Proof.Gen.KernelIdeal.Points
import proofs.«178607_j18545668784680_1_alg».proof.Proof.Gen.KernelIdeal.Frame
import proofs.«178607_j18545668784680_1_alg».proof.Proof.Gen.ReferenceIdeal
import proofs.«178607_j18545668784680_1_alg».proof.Proof.Gen.Pre_finite_inputs
import proofs.«178607_j18545668784680_1_alg».proof.Proof.KernelRun
import proofs.«178607_j18545668784680_1_alg».proof.Proof.KernelHost
import proofs.«178607_j18545668784680_1_alg».proof.Proof.RefRun
import proofs.«178607_j18545668784680_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the same function of the arguments in their result arrays. -/
theorem algebraic : Cert.algebraic_KernelIdeal_ReferenceIdeal := by
  intro m ρ m' ρ' _ hagree
  refine ⟨fun c => Cert.KernelIdeal.HostSide.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.W7_v13 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact Cert.Bridge.out_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
